-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v18 : BitVec 1 := Scalar.cmpi .eq arg2 c7_i32
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S_, .f32⟩
  | .hbm, ⟨3, _⟩ => ⟨S4096x4096, .f32⟩
  | .hbm, ⟨4, _⟩ => ⟨S4096x4096, .i1⟩
  | .hbm, ⟨5, _⟩ => ⟨S_, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_cst_1 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Pieces.lean ====
import proofs.«180420_j90434831385367_1_alg».proof.Proof.Gen.KernelIdeal.Frame
import Idealize.ShloMosaic.Lib.Pipeline.Value
import Idealize.ShloMosaic.Lib.Tactic

set_option maxRecDepth 16384

noncomputable section

/-! # What one grid point leaves in the accumulator and in the output block

The body has three control cases along the contracted grid axis. At the first step of a run (case A) it stores zeros
into the accumulator, reads them back and stores `0 + product`; at a middle step (case B) it stores `acc + product`
over what the step before left; at the last step (case C) it does the same and then copies the accumulator, read back,
into the output block. Each case's stores cover the whole 1024×1024 buffer, so what the buffer holds afterwards is
the last store's value: the accumulation step `k0_pay2` of the two input blocks and the previous contents (zeros in
case A). These hold for any float instance. -/

open Idealize.ShloMosaic Idealize.ShloMosaic.TcCoe Idealize.ShloMosaic.Tactic Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First step of a run: the accumulator ends at the step applied to zeros. -/
theorem sout_A (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x512 .f32) (x1 : Vec F S512x1024 .f32) :
    sout0_A_0 c i arg3 harg3 arg4 harg4 arg5 harg5 arg6 harg6 hc0 hc1 x0 x1 = k0_pay2 x0 x1 (k0_pay1 (F := F)) := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x512) hz,
    View.ld_unit_zero (S := S512x1024) hz]

/-- A middle step: the accumulator ends at the step applied to what the step before left. -/
theorem sout_B (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x512 .f32) (x1 : Vec F S512x1024 .f32) (xs0 : Vec F S1024x1024 .f32) :
    sout0_B_0 c i arg3 harg3 arg4 harg4 arg5 harg5 arg6 harg6 hc0 hc1 x0 x1 xs0 = k0_pay2 x0 x1 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero hz]
  simp only [View.readAt_eq_ld, harg3.read_unread, harg4.read_unread, harg6.read_unread,
    View.ld_unit_zero (S := S1024x512) hz, View.ld_unit_zero (S := S512x1024) hz, View.ld_unit_zero (S := S1024x1024) hz]

/-- The last step leaves the same in the accumulator, -/
theorem sout_C (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x512 .f32) (x1 : Vec F S512x1024 .f32) (xs0 : Vec F S1024x1024 .f32) :
    sout0_C_0 c i arg3 harg3 arg4 harg4 arg5 harg5 arg6 harg6 hc0 hc1 x0 x1 xs0 = k0_pay2 x0 x1 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread,
    View.ld_unit_zero (S := S1024x512) hz, View.ld_unit_zero (S := S512x1024) hz, View.ld_unit_zero (S := S1024x1024) hz]

/-- and copies it into the output block. -/
theorem out_C (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x512 .f32) (x1 : Vec F S512x1024 .f32) (xs0 : Vec F S1024x1024 .f32) :
    out0_C_2 c i arg3 harg3 arg4 harg4 arg5 harg5 arg6 harg6 hc0 hc1 x0 x1 xs0 = k0_pay2 x0 x1 xs0 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz]
  simp only [View.readCov_unit_zero (S := S1024x1024) _ hz, View.readAt_eq_ld, harg3.read_unread, harg4.read_unread,
    harg6.read_unread, View.ld_unit_zero (S := S1024x512) hz, View.ld_unit_zero (S := S512x1024) hz,
    View.ld_unit_zero (S := S1024x1024) hz]

end Cert.KernelIdeal.Pieces

end
-- ==== Proof.Blocks.lean ====
import proofs.«180420_j90434831385367_1_alg».proof.Proof.Gen.KernelIdeal.Frame
import Idealize.ShloMosaic.Lib.Pipeline.Value
import Idealize.ShloMosaic.Lib.ValueIdx

set_option maxRecDepth 16384

noncomputable section

/-! # The windows' blocks as parts of the whole arrays

The grid is 8 × 4 × 8, row blocks by column blocks by contraction blocks, in row-major order: point `t` has row block
`t / 32`, column block `(t / 8) % 4` and contraction block `t % 8`. At point `t` the `x` window holds rows
`1024 (t / 32) …` and columns `512 (t % 8) …` of `x`; the `w` window rows `512 (t % 8) …` and columns
`1024 ((t / 8) % 4) …` of `w`; the output window rows `1024 (t / 32) …` and columns `1024 ((t / 8) % 4) …`. -/

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The two argument arrays as the region finds them, and the two input blocks at a point, at their literal types. -/
abbrev xarr (c : Dev nD) : Vec F S8192x4096 .f32 := V m c main_arg0
abbrev warr (c : Dev nD) : Vec F S4096x4096 .f32 := V m c main_arg1
abbrev xblk (c : Dev nD) (t : Fin cfg0.N) : Vec F S1024x512 .f32 := iblk m c 0 t
abbrev wblk (c : Dev nD) (t : Fin cfg0.N) : Vec F S512x1024 .f32 := iblk m c 1 t

/-- The printed index maps in closed form, decided over the 256 points. -/
theorem idx_x : ∀ t : Fin cfg0.N, win0_0.index t (0 : Fin 2) = t.val / 32 ∧ win0_0.index t (1 : Fin 2) = t.val % 8 :=
  (by decide +kernel : ∀ t : Fin grid0.N, _)
theorem idx_w : ∀ t : Fin cfg0.N, win0_1.index t (0 : Fin 2) = t.val % 8 ∧ win0_1.index t (1 : Fin 2) = t.val / 8 % 4 :=
  (by decide +kernel : ∀ t : Fin grid0.N, _)
theorem idx_o : ∀ t : Fin cfg0.N, win0_2.index t (0 : Fin 2) = t.val / 32 ∧ win0_2.index t (1 : Fin 2) = t.val / 8 % 4 :=
  (by decide +kernel : ∀ t : Fin grid0.N, _)

/-- Entry `(p, l)` of the `x` block at point `t` is `x[1024 (t / 32) + p, 512 (t % 8) + l]`. -/
theorem xblk_apply (c : Dev nD) (t : Fin cfg0.N) (p : Fin 1024) (l : Fin 512) (r : Fin 8192) (k : Fin 4096)
    (hr : r.val = 1024 * (t.val / 32) + p.val) (hk : k.val = 512 * (t.val % 8) + l.val) :
    xblk m c t (ix2 p l) = xarr m c (ix2 r k) := by
  show iblk m c 0 t (ix2 p l) = V m c main_arg0 (ix2 r k)
  unfold iblk
  rw [View.read_apply]
  show V m c main_arg0 _ = V m c main_arg0 _
  congr 1
  funext a
  apply Fin.ext
  match a with
  | ⟨0, _⟩ => show win0_0.index t (0 : Fin 2) * 1024 + 1 * p.val = r.val; rw [(idx_x t).1, hr]; omega
  | ⟨1, _⟩ => show win0_0.index t (1 : Fin 2) * 512 + 1 * l.val = k.val; rw [(idx_x t).2, hk]; omega

/-- Entry `(l, q)` of the `w` block at point `t` is `w[512 (t % 8) + l, 1024 ((t / 8) % 4) + q]`. -/
theorem wblk_apply (c : Dev nD) (t : Fin cfg0.N) (l : Fin 512) (q : Fin 1024) (k : Fin 4096) (cc : Fin 4096)
    (hk : k.val = 512 * (t.val % 8) + l.val) (hc : cc.val = 1024 * (t.val / 8 % 4) + q.val) :
    wblk m c t (ix2 l q) = warr m c (ix2 k cc) := by
  show iblk m c 1 t (ix2 l q) = V m c main_arg1 (ix2 k cc)
  unfold iblk
  rw [View.read_apply]
  show V m c main_arg1 _ = V m c main_arg1 _
  congr 1
  funext a
  apply Fin.ext
  match a with
  | ⟨0, _⟩ => show win0_1.index t (0 : Fin 2) * 512 + 1 * l.val = k.val; rw [(idx_w t).1, hk]; omega
  | ⟨1, _⟩ => show win0_1.index t (1 : Fin 2) * 1024 + 1 * q.val = cc.val; rw [(idx_w t).2, hc]; omega

end Cert.KernelIdeal.Blocks

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.SignDotSpec.lean ====
import Idealize.ShloMosaic.PureOps.Ideal.Laws
import Idealize.ShloMosaic.Lib.ValueIdx
import Mathlib.Algebra.BigOperators.Fin
import Mathlib.Algebra.BigOperators.Group.Finset.Basic

noncomputable section

open scoped BigOperators

/-! # A product with the sign matrix of the weights, entry by entry

Both programs compute `out[r, c] = ∑ k < 4096, x[r, k] · sg (w[k, c])` on the extended reals, where `sg v` is `1`
for `v ≥ 0` and `-1` otherwise. The kernel reaches the sum in eight steps of 512 terms; `psum n` is the sum of the
first `512 · n` terms, so that one step adds one block's 512 products and the eighth partial sum is the whole entry.
Only commutativity and associativity of `+` are used: nothing here asks the entries to be finite. -/

namespace Cert.SignDot

open Idealize.ShloMosaic Idealize.ShloMosaic.ValueIdx

/-- The sign of a weight as both programs spell it at an entry: `1` where `v ≥ 0`, else `-1`. -/
def sg (v : Ideal .f32) : Ideal .f32 :=
  Scalar.select (FloatOps.cmpf (F := Ideal) .oge v (Ideal.ofBits .f32 0x00000000#32))
    (Ideal.ofBits .f32 0x3F800000#32) (Ideal.ofBits .f32 0xBF800000#32)

variable (x : (⟨2, ![8192, 4096]⟩ : Shape).Idx → EReal) (w : (⟨2, ![4096, 4096]⟩ : Shape).Idx → EReal)

/-- The whole result: entry `(r, c)` is the sum over the 4096 contracted positions. -/
def G : (⟨2, ![8192, 4096]⟩ : Shape).Idx → EReal :=
  fun j => ∑ k : Fin 4096, x (ix2 (j 0) k) * sg (w (ix2 k (j 1)))

variable (r : Fin 8192) (c : Fin 4096)

/-- Term `k` of entry `(r, c)`, and zero past the contraction's extent. -/
def tm (k : ℕ) : EReal :=
  if h : k < 4096 then x (ix2 r ⟨k, h⟩) * sg (w (ix2 ⟨k, h⟩ c)) else 0

theorem tm_of_lt (k : ℕ) (h : k < 4096) : tm x w r c k = x (ix2 r ⟨k, h⟩) * sg (w (ix2 ⟨k, h⟩ c)) := dif_pos h

/-- The sum of the first `512 · n` terms of entry `(r, c)`. -/
def psum (n : ℕ) : EReal := ∑ k ∈ Finset.range (512 * n), tm x w r c k

theorem psum_zero : psum x w r c 0 = 0 := by
  unfold psum; rw [Nat.mul_zero, Finset.range_zero, Finset.sum_empty]

/-- One more block of 512 terms. -/
theorem psum_succ (n : ℕ) :
    psum x w r c (n + 1) = psum x w r c n + ∑ l : Fin 512, tm x w r c (512 * n + l.val) := by
  unfold psum
  rw [show 512 * (n + 1) = 512 * n + 512 from by omega, Finset.sum_range_add,
    Finset.sum_range (fun l => tm x w r c (512 * n + l))]

/-- Eight blocks are the whole contraction. -/
theorem psum_eight : psum x w r c 8 = G x w (ix2 r c) := by
  unfold psum G
  rw [show 512 * 8 = 4096 from rfl, Finset.sum_range]
  refine Finset.sum_congr rfl fun k _ => ?_
  rw [tm_of_lt x w r c k.val k.isLt]

/-- A step of the accumulation: if a 1024×512 block of `x` and a 512×1024 block of `w` hold, on row `p` and column
    `q`, the entries of row `r` and column `c` at contracted positions `512 n … 512 n + 511`, then adding the block's
    512 products to the `n`-th partial sum gives the next one. -/
theorem psum_step (n : ℕ) (hn : n < 8) (xb : (⟨2, ![1024, 512]⟩ : Shape).Idx → EReal)
    (wb : (⟨2, ![512, 1024]⟩ : Shape).Idx → EReal) (p q : Fin 1024)
    (hx : ∀ l : Fin 512, xb (ix2 p l) = x (ix2 r ⟨512 * n + l.val, by have := l.isLt; omega⟩))
    (hw : ∀ l : Fin 512, wb (ix2 l q) = w (ix2 ⟨512 * n + l.val, by have := l.isLt; omega⟩ c)) :
    psum x w r c n + ∑ l : Fin 512, xb (ix2 p l) * sg (wb (ix2 l q)) = psum x w r c (n + 1) := by
  rw [psum_succ]
  congr 1
  refine Finset.sum_congr rfl fun l _ => ?_
  rw [tm_of_lt x w r c (512 * n + l.val) (by have := l.isLt; omega), hx l, hw l]

end Cert.SignDot

end
-- ==== Proof.Payload.lean ====
import proofs.«180420_j90434831385367_1_alg».proof.Proof.Gen.KernelIdeal.Skeleton
import proofs.«180420_j90434831385367_1_alg».proof.Proof.LibPlainDot
import proofs.«180420_j90434831385367_1_alg».proof.Proof.SignDotSpec
import Idealize.ShloMosaic.Lib.Pipeline.Value

noncomputable section

open scoped BigOperators

/-! # The body's two stored values, entry by entry

At a grid point the body stores into the accumulator either zeros (first step of a run of eight) or the accumulator
plus the product of the `x` block with the sign matrix of the `w` block. Read at entry `(p, q)` over the extended
reals, where a change of float format is the identity and the matrix unit's product into a zero accumulator is the
plain sum: the second value is `acc[p, q] + ∑ l < 512, xb[p, l] · sg (wb[l, q])`. -/

namespace Cert.KernelIdeal.Payload

open Cert.KernelIdeal Cert.KernelIdeal.Gen Idealize.ShloMosaic Idealize.ShloMosaic.ValueIdx Cert.SignDot

/-- The reset value is zero everywhere. -/
theorem pay1_apply (j : S1024x1024.Idx) : k0_pay1 (F := Ideal) j = 0 := by
  unfold k0_pay1
  rw [shapeCast_self]
  exact Ideal.ofBits_zero_f32

/-- The accumulation step at entry `(p, q)`. -/
theorem pay2_apply (xb : Vec Ideal S1024x512 .f32) (wb : Vec Ideal S512x1024 .f32) (acc : Vec Ideal S1024x1024 .f32)
    (p q : Fin 1024) :
    k0_pay2 xb wb acc (ix2 p q) = acc (ix2 p q) + ∑ l : Fin 512, xb (ix2 p l) * sg (wb (ix2 l q)) := by
  unfold k0_pay2
  rw [shapeCast_self, addf_apply]
  congr 1
  refine (Cert.PlainDot.matmul_zero_apply dot_S1024x512_S512x1024_S1024x1024_1_0_0_1_n_n rfl none _ _ (ix2 p q)).trans ?_
  rfl

end Cert.KernelIdeal.Payload

end
-- ==== Proof.Accum.lean ====
import proofs.«180420_j90434831385367_1_alg».proof.Proof.Pieces
import proofs.«180420_j90434831385367_1_alg».proof.Proof.Blocks
import proofs.«180420_j90434831385367_1_alg».proof.Proof.Payload

set_option maxRecDepth 16384

noncomputable section

/-! # The accumulator along a run of eight points

Fix an output entry `(r, cc)` and write it inside its 1024×1024 block as `(p, q)`. After the point with contraction
block `n % 8` the accumulator holds at `(p, q)` the sum of the first `512 (n % 8 + 1)` products
`x[r, k] · sg (w[k, cc])`: at the first point of a run the step starts from zeros, afterwards from what the point
before left, and the point before lies in the same row and column block. At the last point of a run the output block
receives the accumulator, which is then the whole sum over `k < 4096`. -/

open Idealize.ShloMosaic Idealize.ShloMosaic.TcCoe Idealize.SL.Sem Idealize.ShloMosaic.ValueIdx

namespace Cert.KernelIdeal.Accum

open Cert.KernelIdeal Cert.KernelIdeal.Gen Cert.KernelIdeal.Blocks Cert.KernelIdeal.Pieces Cert.KernelIdeal.Payload Cert.SignDot

variable (m : (ℓ : Loc nD τ sig) → Buf (Elt Ideal) ℓ)

/-- One step at point `t`, from an accumulator holding the partial sum up to the point's contraction block. -/
theorem step (c : Dev nD) (t : Fin cfg0.N) (p q : Fin 1024) (r : Fin 8192) (cc : Fin 4096)
    (hr : r.val = 1024 * (t.val / 32) + p.val) (hc : cc.val = 1024 * (t.val / 8 % 4) + q.val)
    (acc : Vec Ideal S1024x1024 .f32) (ha : acc (ix2 p q) = psum (xarr m c) (warr m c) r cc (t.val % 8)) :
    k0_pay2 (xblk m c t) (wblk m c t) acc (ix2 p q) = psum (xarr m c) (warr m c) r cc (t.val % 8 + 1) := by
  refine (pay2_apply (xblk m c t) (wblk m c t) acc p q).trans ?_
  rw [ha]
  have h8 : t.val % 8 < 8 := Nat.mod_lt _ (by decide)
  exact psum_step (xarr m c) (warr m c) r cc (t.val % 8) h8 (xblk m c t) (wblk m c t) p q
    (fun l => xblk_apply m c t p l r ⟨512 * (t.val % 8) + l.val, by have := l.isLt; omega⟩ hr rfl)
    (fun l => wblk_apply m c t l q ⟨512 * (t.val % 8) + l.val, by have := l.isLt; omega⟩ cc rfl hc)

/-- The accumulator after point `n`. -/
theorem scratch_eq (c : Dev nD) : ∀ (n : ℕ) (hn : n < cfg0.N) (p q : Fin 1024) (r : Fin 8192) (cc : Fin 4096),
    r.val = 1024 * (n / 32) + p.val → cc.val = 1024 * (n / 8 % 4) + q.val →
    (outsAt0 m c n hn).2 (ix2 p q) = psum (xarr m c) (warr m c) r cc (n % 8 + 1) := by
  intro n
  induction n using Nat.strong_induction_on with
  | _ n ih =>
    intro hn p q r cc hr hc
    have hN : n < 256 := lt_of_lt_of_eq hn (show cfg0.N = 256 from N_0)
    have hp : n - 1 < cfg0.N := Nat.lt_of_le_of_lt (Nat.sub_le _ _) hn
    by_cases h0 : n % 8 = 0
    · have h1 : ¬ n % 8 = 7 := by omega
      rw [outsAt0_A m c ⟨n, hn⟩ h0 h1]
      dsimp only
      refine (congrFun (sout_A (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) ((hcond0_0 ⟨n, hn⟩).mpr h0) (fun h => h1 ((hcond0_1 ⟨n, hn⟩).mp h)) (xblk m c ⟨n, hn⟩) (wblk m c ⟨n, hn⟩)) (ix2 p q)).trans ?_
      refine step m c ⟨n, hn⟩ p q r cc hr hc (k0_pay1 (F := Ideal)) ?_
      rw [pay1_apply]
      show (0 : EReal) = psum (xarr m c) (warr m c) r cc (n % 8)
      rw [h0, psum_zero]
    · have hprev : (outsAt0 m c (n - 1) hp).2 (ix2 p q) = psum (xarr m c) (warr m c) r cc (n % 8) := by
        rw [ih (n - 1) (by omega) hp p q r cc (by omega) (by omega)]
        congr 1
        omega
      by_cases h1 : n % 8 = 7
      · rw [outsAt0_C m c ⟨n, hn⟩ h0 h1]
        dsimp only
        refine (congrFun (sout_C (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (fun h => h0 ((hcond0_0 ⟨n, hn⟩).mp h)) ((hcond0_1 ⟨n, hn⟩).mpr h1) (xblk m c ⟨n, hn⟩) (wblk m c ⟨n, hn⟩) (outsAt0 m c (n - 1) hp).2) (ix2 p q)).trans ?_
        exact step m c ⟨n, hn⟩ p q r cc hr hc (outsAt0 m c (n - 1) hp).2 hprev
      · rw [outsAt0_B m c ⟨n, hn⟩ h0 h1]
        dsimp only
        refine (congrFun (sout_B (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (fun h => h0 ((hcond0_0 ⟨n, hn⟩).mp h)) (fun h => h1 ((hcond0_1 ⟨n, hn⟩).mp h)) (xblk m c ⟨n, hn⟩) (wblk m c ⟨n, hn⟩) (outsAt0 m c (n - 1) hp).2) (ix2 p q)).trans ?_
        exact step m c ⟨n, hn⟩ p q r cc hr hc (outsAt0 m c (n - 1) hp).2 hprev

/-- The output block at the last point of a run holds the whole sum. -/
theorem out_eq (c : Dev nD) (t : Fin cfg0.N) (h7 : t.val % 8 = 7) (p q : Fin 1024) (r : Fin 8192) (cc : Fin 4096)
    (hr : r.val = 1024 * (t.val / 32) + p.val) (hc : cc.val = 1024 * (t.val / 8 % 4) + q.val) :
    (outsAt0 m c t.val t.isLt).1 (ix2 p q) = G (xarr m c) (warr m c) (ix2 r cc) := by
  have hN : t.val < 256 := lt_of_lt_of_eq t.isLt (show cfg0.N = 256 from N_0)
  have h0 : ¬ t.val % 8 = 0 := by omega
  have hp : t.val - 1 < cfg0.N := Nat.lt_of_le_of_lt (Nat.sub_le _ _) t.isLt
  have hprev : (outsAt0 m c (t.val - 1) hp).2 (ix2 p q) = psum (xarr m c) (warr m c) r cc (t.val % 8) := by
    rw [scratch_eq m c (t.val - 1) hp p q r cc (by omega) (by omega)]
    congr 1
    omega
  rw [outsAt0_C m c t h0 h7]
  dsimp only
  refine (congrFun (out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h7) (xblk m c t) (wblk m c t) (outsAt0 m c (t.val - 1) hp).2) (ix2 p q)).trans ?_
  refine (step m c t p q r cc hr hc (outsAt0 m c (t.val - 1) hp).2 hprev).trans ?_
  rw [h7]
  exact psum_eight (xarr m c) (warr m c) r cc

end Cert.KernelIdeal.Accum

end
-- ==== Proof.Final.lean ====
import proofs.«180420_j90434831385367_1_alg».proof.Proof.Accum
import proofs.«180420_j90434831385367_1_alg».proof.Proof.Gen.KernelIdeal.Value

set_option maxRecDepth 16384

noncomputable section

/-! # The result array after the kernel's run

The output window is written back only at the last point of each run of eight, and there its block holds the whole
sums of its entries. The 32 output blocks (8 row blocks by 4 column blocks) tile the 8192×4096 array: entry `(i, j)`
lies in the block written back at point `((i / 1024) · 4 + j / 1024) · 8 + 7`. So the array ends holding
`out[i, j] = ∑ k < 4096, x[i, k] · sg (w[k, j])` everywhere. -/

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Blocks Cert.KernelIdeal.Accum Cert.SignDot

variable (m : (ℓ : Loc nD τ sig) → Buf (Elt Ideal) ℓ) (ρ : Dev nD → PrngReg)

/-- The result array's contents: the product with the sign matrix, of the arguments as launched. -/
abbrev result (c : Dev nD) : Buf (Elt Ideal) ((c : Thread nD τ).loc main_v0) := G (xarr m c) (warr m c)

/-- At the last point of a run, entry `y` of the output block is the result at the block's place in the array. -/
theorem flushed_apply (c : Dev nD) (t : Fin cfg0.N) (h7 : t.val % 8 = 7) (y : S1024x1024.Idx) :
    (outsAt0 m c t.val t.isLt).1 y = result m c (((cfg0.win 2).blk t).view.emb y) := by
  have hN : t.val < 256 := lt_of_lt_of_eq t.isLt (show cfg0.N = 256 from N_0)
  have hy0 : (y 0).val < 1024 := (y 0).isLt
  have hy1 : (y 1).val < 1024 := (y 1).isLt
  have key := out_eq m c t h7 (y 0) (y 1) ⟨1024 * (t.val / 32) + (y 0).val, by omega⟩
    ⟨1024 * (t.val / 8 % 4) + (y 1).val, by omega⟩ rfl rfl
  refine ((congrArg (outsAt0 m c t.val t.isLt).1 (eq_ix2 y)).trans key).trans (congrArg (G (xarr m c) (warr m c)) ?_)
  funext a
  apply Fin.ext
  match a with
  | ⟨0, _⟩ =>
    show 1024 * (t.val / 32) + (y 0).val = win0_2.index t (0 : Fin 2) * 1024 + 1 * (y 0).val
    rw [(idx_o t).1]; omega
  | ⟨1, _⟩ =>
    show 1024 * (t.val / 8 % 4) + (y 1).val = win0_2.index t (1 : Fin 2) * 1024 + 1 * (y 1).val
    rw [(idx_o t).2]; omega

/-- What a write-back writes is its block of the result. -/
theorem flushed_eq (c : Dev nD) (t : Fin cfg0.N) (hf : (cfg0.win 2).flush t = true) :
    (dats m 0 c).flushed 2 t = ((cfg0.win 2).blk t).view.read (Elt Ideal) (result m c) := by
  have h7 : t.val % 8 = 7 := (flush0_2 t).mp hf
  rw [Value.flushed2]
  funext y
  show (outsAt0 m c t.val t.isLt).1 y = result m c (((cfg0.win 2).blk t).view.emb y)
  exact flushed_apply m c t h7 y

/-- Every entry of the array lies in a block that is written back. -/
theorem cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have hN : cfg0.N = 256 := N_0
  have hlt : ((i 0).val / 1024 * 4 + (i 1).val / 1024) * 8 + 7 < cfg0.N := by rw [hN]; omega
  refine ⟨⟨((i 0).val / 1024 * 4 + (i 1).val / 1024) * 8 + 7, hlt⟩, (flush0_2 _).mpr (by
    show (((i 0).val / 1024 * 4 + (i 1).val / 1024) * 8 + 7) % 8 = 7; omega), ?_⟩
  have e0 := (idx_o ⟨((i 0).val / 1024 * 4 + (i 1).val / 1024) * 8 + 7, hlt⟩).1
  have e1 := (idx_o ⟨((i 0).val / 1024 * 4 + (i 1).val / 1024) * 8 + 7, hlt⟩).2
  dsimp only at e0 e1
  show i ∈ ((View.whole main_v0).slice (win0_2.rect ⟨((i 0).val / 1024 * 4 + (i 1).val / 1024) * 8 + 7, hlt⟩)).set
  rw [View.set_slice_whole, Rect.mem_set_unit]
  intro a
  match a with
  | ⟨0, _⟩ =>
    show win0_2.index ⟨((i 0).val / 1024 * 4 + (i 1).val / 1024) * 8 + 7, hlt⟩ (0 : Fin 2) * 1024 ≤ (i 0).val
      ∧ (i 0).val < win0_2.index ⟨((i 0).val / 1024 * 4 + (i 1).val / 1024) * 8 + 7, hlt⟩ (0 : Fin 2) * 1024 + 1024
    rw [e0]; omega
  | ⟨1, _⟩ =>
    show win0_2.index ⟨((i 0).val / 1024 * 4 + (i 1).val / 1024) * 8 + 7, hlt⟩ (1 : Fin 2) * 1024 ≤ (i 1).val
      ∧ (i 1).val < win0_2.index ⟨((i 0).val / 1024 * 4 + (i 1).val / 1024) * 8 + 7, hlt⟩ (1 : Fin 2) * 1024 + 1024
    rw [e1]; omega

/-- So the array ends holding the result. -/
theorem final (c : Dev nD) : (dats m 0 c).arrAt 2 cfg0.N = result m c :=
  (dats m 0 c).arrAt_eq_of_cover 2 (result m c) (flushed_eq m c) cover

/-- The kernel's run: the result array at the product with the sign matrix, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Final

end
-- ==== Proof.Reference.lean ====
import proofs.«180420_j90434831385367_1_alg».proof.Proof.Gen.ReferenceIdeal.Read
import proofs.«180420_j90434831385367_1_alg».proof.Proof.SignDotSpec

noncomputable section

open scoped BigOperators

/-! # The reference computes the same function

The reference builds the sign matrix of `w` with a compare against zero and a select between the constants `1` and
`-1`, and contracts `x` with it in one `dot_general`: entry `(i, j)` is `∑ k < 4096, x[i, k] · sg (w[k, j])`. -/

namespace Cert.ReferenceIdeal.RefValue

open Cert.ReferenceIdeal Cert.ReferenceIdeal.Read Idealize.ShloMosaic Idealize.ShloMosaic.ValueIdx Cert.SignDot

theorem ref_eq (x0 : (⟨S8192x4096, .f32⟩ : BufTy).Contents (Elt Ideal)) (x1 : (⟨S4096x4096, .f32⟩ : BufTy).Contents (Elt Ideal)) :
    val_main_v4 (F := Ideal) x0 x1 = G x0 x1 := by
  funext i
  rw [val_main_v4_apply]
  unfold G
  refine Finset.sum_congr rfl fun k _ => ?_
  have el : lidx_main_v4 i k = ix2 (i 0) k := funext fun a => Fin.ext (by
    match a with
    | ⟨0, _⟩ => rfl
    | ⟨1, _⟩ => rfl)
  have er : ridx_main_v4 i k = ix2 k (i 1) := funext fun a => Fin.ext (by
    match a with
    | ⟨0, _⟩ => rfl
    | ⟨1, _⟩ => rfl)
  have hs : val_main_v3 (F := Ideal) x1 (ridx_main_v4 i k) = sg (x1 (ridx_main_v4 i k)) := by
    rw [val_main_v3_apply, val_main_v2_apply, val_main_v1_apply, val_main_v0_apply, val_main_cst_apply,
      val_main_call0_v0_apply, val_main_cst_0_apply, val_main_call0_v1_apply, val_main_cst_1_apply]
    rfl
  rw [hs]
  exact congrArg₂ (fun (a : S8192x4096.Idx) (b : S4096x4096.Idx) => x0 a * sg (x1 b)) el er

end Cert.ReferenceIdeal.RefValue

end
-- ==== Proof.lean ====
/- The two programs compute one function. With `sg v = 1` for `v ≥ 0` and `-1` otherwise, the result is
   `out[i, j] = ∑ k < 4096, x[i, k] · sg (w[k, j])` over the extended reals.
   The kernel tiles the output in 1024×1024 blocks and walks the contraction in eight blocks of 512: an accumulator is
   zeroed at the first step of a run, each step adds the block product (the casts to bf16 are the identity on the
   extended reals, and the matrix unit's product into zero is the plain sum), and the last step copies the accumulator
   into the output block. After step `n` of a run the accumulator holds the sum of the first `512 (n + 1)` terms, so the
   copied block holds the whole sums; the 32 blocks tile the array. The reference contracts all 4096 positions at once.
   The two agree by associativity and commutativity of `+` alone: no entry needs to be finite. -/
import proofs.«180420_j90434831385367_1_alg».proof.Defs
import proofs.«180420_j90434831385367_1_alg».proof.Proof.Gen.Kernel
import proofs.«180420_j90434831385367_1_alg».proof.Proof.Gen.Kernel.Skeleton
import proofs.«180420_j90434831385367_1_alg».proof.Proof.Gen.Kernel.Launch
import proofs.«180420_j90434831385367_1_alg».proof.Proof.Gen.Kernel.Points
import proofs.«180420_j90434831385367_1_alg».proof.Proof.Gen.Kernel.Frame
import proofs.«180420_j90434831385367_1_alg».proof.Proof.Gen.KernelIdeal
import proofs.«180420_j90434831385367_1_alg».proof.Proof.Gen.KernelIdeal.Skeleton
import proofs.«180420_j90434831385367_1_alg».proof.Proof.Gen.KernelIdeal.Launch
import proofs.«180420_j90434831385367_1_alg».proof.Proof.Gen.KernelIdeal.Points
import proofs.«180420_j90434831385367_1_alg».proof.Proof.Gen.KernelIdeal.Frame
import proofs.«180420_j90434831385367_1_alg».proof.Proof.Gen.ReferenceIdeal
import proofs.«180420_j90434831385367_1_alg».proof.Proof.Gen.Pre_finite_inputs
import proofs.«180420_j90434831385367_1_alg».proof.Proof.Gen.KernelIdeal.Value
import proofs.«180420_j90434831385367_1_alg».proof.Proof.Gen.ReferenceIdeal.Run
import proofs.«180420_j90434831385367_1_alg».proof.Proof.Gen.ReferenceIdeal.Read
import proofs.«180420_j90434831385367_1_alg».proof.Proof.Final
import proofs.«180420_j90434831385367_1_alg».proof.Proof.Reference
import Idealize.ShloMosaic.Adequacy
import Idealize.ShloMosaic.Init

noncomputable section

namespace Cert.Proof

open Idealize.ShloMosaic Idealize.SL.Sem Cert.Kernel

/-- The word-level kernel runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel's result array ends at the product with the sign matrix; the reference's at its `dot_general` with
    the selected signs, which is the same sum entry by entry; the arguments agree. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
